-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8192 : Shape := ⟨2, ![16384, 8192]⟩
abbrev S8192x32 : Shape := ⟨2, ![8192, 32]⟩
abbrev S_ : Shape := ⟨0, ![]⟩

class Facts : Prop where
  bcast_S_S16384x8192 : S_.BroadcastsInDim S16384x8192 (![] : Fin 0 → Fin S16384x8192.rank)
  reducesTo_S16384x8192_S_d0_1 : S16384x8192.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_

variable [Facts]

def fn {F : FTy → Type} [FloatOps F] (main_arg0 : FVec F S16384x8192 .f32) (main_arg1 : FVec F S8192x32 .f32) : IVec S_ 1 :=
  let main_v0 : FVec F S16384x8192 .f32 := Host.absf main_arg0
  let main_cst : FVec F S_ .f32 := constant S_ .f32 0x7F800000#32
  let main_v1 : FVec F S16384x8192 .f32 := broadcastInDim S16384x8192 ![] bcast_S_S16384x8192 main_cst
  let main_v2 : IVec S16384x8192 1 := cmpf .olt main_v0 main_v1
  let main_c : IVec S_ 1 := constantI S_ 1 1#1
  let main_v3 : IVec S_ 1 := (fun x v => Host.reduce IntOp.andi x v reducesTo_S16384x8192_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  main_v8
-- ==== Kernel.lean ====
abbrev S16384x8192 : Shape := ⟨2, ![16384, 8192]⟩
abbrev S8192x32 : Shape := ⟨2, ![8192, 32]⟩
abbrev S16384x32 : Shape := ⟨2, ![16384, 32]⟩
abbrev S512x8192 : Shape := ⟨2, ![512, 8192]⟩
abbrev S512x32 : Shape := ⟨2, ![512, 32]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x8192, .f32⟩
  | .hbm, ⟨1, _⟩ => ⟨S8192x32, .f32⟩
  | .hbm, ⟨2, _⟩ => ⟨S8192x32, .bf16⟩
  | .hbm, ⟨3, _⟩ => ⟨S16384x32, .f32⟩
  | .local _ .vmem, ⟨0, _⟩ => ⟨S512x8192, .f32⟩
  | .local _ .vmem, ⟨1, _⟩ => ⟨S512x8192, .f32⟩
  | .local _ .vmem, ⟨2, _⟩ => ⟨S8192x32, .bf16⟩
  | .local _ .vmem, ⟨3, _⟩ => ⟨S512x32, .f32⟩
  | .local _ .vmem, ⟨4, _⟩ => ⟨S512x32, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  broadcasts_S512x1_S512x8192 : S512x1.Broadcasts S512x8192
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  broadcasts_S512x1_S512x32 : S512x1.Broadcasts S512x32
  inb_S512x32_S512x32_0_0 : ∀ a, (![0, 0] : Fin 2 → Nat) a + S512x32.size a ≤ S512x32.size a
  h_S512x32 : 0 < S512x32.numel
  dot_S512x8192_S8192x32_S512x32_1_0_0_1_n_n_wf : DotDims.WF S512x8192 S8192x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S16384x8192.size a
  hwx0_0 : ∀ i : grid0.Coords, EltTy.bits .f32 = 32 ∨ (Rect.block (s := S16384x8192) S512x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S8192x32.size a
  hwx0_1 : ∀ i : grid0.Coords, EltTy.bits .bf16 = 32 ∨ (Rect.block (s := S8192x32) S8192x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S16384x32.size a
  hwx0_2 : ∀ i : grid0.Coords, EltTy.bits .f32 = 32 ∨ (Rect.block (s := S16384x32) S512x32.size (cc0_transform_2 i) (hinb0_2 i)).WholeWords (EltTy.packing .f32)

variable [Facts₀]

def dot_S512x8192_S8192x32_S512x32_1_0_0_1_n_n : DotDims S512x8192 S8192x32 S512x32 where
  lhsContracting := [1]
  rhsContracting := [0]
  lhsNonContracting := [0]
  rhsNonContracting := [1]
  lhsBatch := []
  rhsBatch := []
  wf := dot_S512x8192_S8192x32_S512x32_1_0_0_1_n_n_wf

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x8192 : Shape := ⟨2, ![16384, 8192]⟩
abbrev S8192x32 : Shape := ⟨2, ![8192, 32]⟩
abbrev S_ : Shape := ⟨0, ![]⟩
abbrev S16384 : Shape := ⟨1, ![16384]⟩
abbrev S16384x1 : Shape := ⟨2, ![16384, 1]⟩
abbrev S16384x32 : Shape := ⟨2, ![16384, 32]⟩

abbrev nBuf : Space → Nat
  | .hbm => 17
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S8192x32, .f32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x8192, .f32⟩
  | .hbm, ⟨9, _⟩ => ⟨S16384x8192, .f32⟩
  | .hbm, ⟨10, _⟩ => ⟨S16384x8192, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x8192, .f32⟩
  | .hbm, ⟨15, _⟩ => ⟨S16384x8192, .f32⟩
  | .hbm, ⟨16, _⟩ => ⟨S16384x32, .f32⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S16384x8192_S16384_d1 : S16384x8192.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x8192_0_1 : S16384x1.BroadcastsInDim S16384x8192 (![0, 1] : Fin 2 → Fin S16384x8192.rank)
  dot_S16384x8192_S8192x32_S16384x32_1_0_0_1_n_n_wf : DotDims.WF S16384x8192 S8192x32 S16384x32 [1] [0] [0] [1] [] []

variable [Facts₀]

def dot_S16384x8192_S8192x32_S16384x32_1_0_0_1_n_n : DotDims S16384x8192 S8192x32 S16384x32 where
  lhsContracting := [1]
  rhsContracting := [0]
  lhsNonContracting := [0]
  rhsNonContracting := [1]
  lhsBatch := []
  rhsBatch := []
  wf := dot_S16384x8192_S8192x32_S16384x32_1_0_0_1_n_n_wf

class Facts : Prop extends Facts₀ where

variable [Facts]
-- ==== Proof.LibLinear.lean ====
/-
  Finite sums of real numbers inside the extended reals, and the exchange of a weighted row sum with a matrix product.

  For rows x e (e in a finite set S) with real entries, real weights c e and a real column W:
    Σ k, (Σ e ∈ S, x e k · c e) · W k  =  Σ e ∈ S, (Σ k, x e k · W k) · c e.
  Both sides are the real number Σ e ∈ S, Σ k, x e k · c e · W k; on the extended reals the law needs every factor
  finite, because a product does not distribute over a sum that mixes infinities.
-/
import Idealize.ShloMosaic.PureOps.Ideal

noncomputable section

namespace Cert.LibLinear

/-- The extended real of a finite sum of reals is the sum of the extended reals. -/
theorem coe_sum {ι : Type} (S : Finset ι) (f : ι → ℝ) : ((∑ i ∈ S, f i : ℝ) : EReal) = ∑ i ∈ S, (f i : EReal) := by
  classical
  refine Finset.induction_on S ?_ ?_
  · simp
  · intro a s ha ih
    rw [Finset.sum_insert ha, Finset.sum_insert ha, EReal.coe_add, ih]

/-- A finite sum of extended reals that are all real is real. -/
theorem sum_real {ι : Type} (S : Finset ι) (f : ι → EReal) (hf : ∀ i ∈ S, ∃ r : ℝ, f i = (r : EReal)) :
    ∃ r : ℝ, ∑ i ∈ S, f i = (r : EReal) := by
  refine ⟨∑ i ∈ S, (f i).toReal, ?_⟩
  rw [coe_sum]
  refine Finset.sum_congr rfl (fun i hi => ?_)
  obtain ⟨r, hr⟩ := hf i hi
  rw [hr, EReal.toReal_coe]

/-- The exchange law. -/
theorem exchange {E K : Type} [Fintype K] (S : Finset E) (x : E → K → EReal) (cw : E → EReal) (W : K → EReal)
    (hx : ∀ e k, ∃ r : ℝ, x e k = (r : EReal)) (hc : ∀ e, ∃ r : ℝ, cw e = (r : EReal)) (hW : ∀ k, ∃ r : ℝ, W k = (r : EReal)) :
    ∑ k : K, (∑ e ∈ S, x e k * cw e) * W k = ∑ e ∈ S, (∑ k : K, x e k * W k) * cw e := by
  -- real witnesses for every entry
  choose xr hxr using hx
  choose cr hcr using hc
  choose Wr hWr using hW
  -- the left side is the extended real of a real double sum
  have hL : ∑ k : K, (∑ e ∈ S, x e k * cw e) * W k
      = ((∑ k : K, (∑ e ∈ S, xr e k * cr e) * Wr k : ℝ) : EReal) := by
    rw [coe_sum]
    refine Finset.sum_congr rfl (fun k _ => ?_)
    rw [EReal.coe_mul, coe_sum, hWr]
    congr 1
    refine Finset.sum_congr rfl (fun e _ => ?_)
    rw [EReal.coe_mul, hxr, hcr]
  -- so is the right side
  have hR : ∑ e ∈ S, (∑ k : K, x e k * W k) * cw e
      = ((∑ e ∈ S, (∑ k : K, xr e k * Wr k) * cr e : ℝ) : EReal) := by
    rw [coe_sum]
    refine Finset.sum_congr rfl (fun e _ => ?_)
    rw [EReal.coe_mul, coe_sum, hcr]
    congr 1
    refine Finset.sum_congr rfl (fun k _ => ?_)
    rw [EReal.coe_mul, hxr, hWr]
  rw [hL, hR]
  congr 1
  -- over the reals: distribute, swap the two sums, and compare term by term
  simp only [Finset.sum_mul]
  rw [Finset.sum_comm]
  refine Finset.sum_congr rfl (fun e _ => Finset.sum_congr rfl (fun k _ => ?_))
  ring

end Cert.LibLinear

end
-- ==== Proof.SoftLookup.lean ====
/-
  The soft codebook lookup of one row, in its two arrangements, on the extended reals.

  For a row of logits f and a codebook column c, both over Fin n, and a shift m:
    fused       f c m = (Σ k, exp (f k − m) · c k) / (Σ k, exp (f k − m))
    normalized  f c m = Σ k, (exp (f k − m) / Σ k', exp (f k' − m)) · c k
  The first divides the weighted sum once; the second divides every weight and then sums. When every logit, every
  codebook entry and the shift are real, each exponential is a positive real, the normalizer is a positive real S, and
  both sides are the real number (Σ k, e k · c k) · (1/S). The law needs finiteness: division does not distribute over a
  sum of extended reals that mixes infinities.

  The shift both programs use is the row's maximum, the fold of max from the word of −∞. For a row of reals over a
  non-empty index set it is real (it lies above one entry and below +∞), and taking its maximum with −∞ once more
  changes nothing.
-/
import Idealize.ShloMosaic.PureOps.Ideal
import Idealize.ShloMosaic.PureOps.Ideal.Laws
import proofs.«147633_g72335839199651_cont_sun_m_630_7_alg».proof.Proof.LibLinear

noncomputable section

namespace Cert.SoftLookup

open Idealize.ShloMosaic

variable {n : ℕ}

/-- The f32 word 0xFF800000 denotes −∞. -/
theorem negInf_eq : Ideal.ofBits .f32 0xFF800000#32 = (⊥ : EReal) := by
  simp [Ideal.ofBits, Ideal.ieee]

/-- A row's maximum as both programs fold it: max over the entries, starting from −∞'s word. -/
def rowMax (f : Fin n → EReal) : EReal :=
  (Finset.univ : Finset (Fin n)).fold max (Ideal.ofBits .f32 0xFF800000#32) f

/-- The maximum of a non-empty row of reals is real. -/
theorem rowMax_real (hn : 0 < n) (f : Fin n → EReal) (hf : ∀ k, ∃ r : ℝ, f k = (r : EReal)) :
    ∃ r : ℝ, rowMax f = (r : EReal) := by
  have hlt : rowMax f < ⊤ := by
    unfold rowMax
    rw [Finset.fold_max_lt]
    refine ⟨by rw [negInf_eq]; exact bot_lt_top, fun k _ => ?_⟩
    obtain ⟨r, hr⟩ := hf k
    rw [hr]; exact EReal.coe_lt_top r
  have hgt : ⊥ < rowMax f := by
    obtain ⟨r, hr⟩ := hf ⟨0, hn⟩
    refine lt_of_lt_of_le (b := f ⟨0, hn⟩) (by rw [hr]; exact EReal.bot_lt_coe r) ?_
    unfold rowMax
    rw [Finset.le_fold_max]
    exact Or.inr ⟨⟨0, hn⟩, Finset.mem_univ _, le_rfl⟩
  exact ⟨(rowMax f).toReal, (EReal.coe_toReal hlt.ne hgt.ne').symm⟩

/-- The maximum of −∞ and a row's maximum is the row's maximum: the fold already starts from −∞. -/
theorem max_negInf_rowMax (f : Fin n → EReal) :
    max (Ideal.ofBits .f32 0xFF800000#32) (rowMax f) = rowMax f := by
  apply max_eq_right
  unfold rowMax
  rw [Finset.le_fold_max]
  exact Or.inl le_rfl

/-- Divide the weighted sum once. -/
def fused (f c : Fin n → EReal) (m : EReal) : EReal :=
  Ideal.div (∑ k, Ideal.exp (f k - m) * c k) (∑ k, Ideal.exp (f k - m))

/-- Divide every weight, then sum. -/
def normalized (f c : Fin n → EReal) (m : EReal) : EReal :=
  ∑ k, Ideal.div (Ideal.exp (f k - m)) (∑ k', Ideal.exp (f k' - m)) * c k

/-- The two arrangements agree on a non-empty row of real logits against real codebook entries, at a real shift. -/
theorem fused_eq_normalized (hn : 0 < n) (f c : Fin n → EReal) (m : ℝ)
    (hf : ∀ k, ∃ r : ℝ, f k = (r : EReal)) (hc : ∀ k, ∃ r : ℝ, c k = (r : EReal)) :
    fused f c (m : EReal) = normalized f c (m : EReal) := by
  choose fr hfr using hf
  choose cr hcr using hc
  -- each exponential is a real
  have he : ∀ k, Ideal.exp (f k - (m : EReal)) = ((Real.exp (fr k - m) : ℝ) : EReal) := fun k => by
    rw [hfr k, ← EReal.coe_sub]; rfl
  -- the normalizer is a positive real
  have hS : ∑ k, Ideal.exp (f k - (m : EReal)) = ((∑ k, Real.exp (fr k - m) : ℝ) : EReal) := by
    rw [Cert.LibLinear.coe_sum]; exact Finset.sum_congr rfl fun k _ => he k
  have hpos : (∑ k : Fin n, Real.exp (fr k - m)) ≠ 0 :=
    (Finset.sum_pos (fun k _ => Real.exp_pos _) ⟨⟨0, hn⟩, Finset.mem_univ _⟩).ne'
  unfold fused normalized
  rw [hS, Ideal.div_coe hpos]
  -- the weighted sum is a real
  have hL : ∑ k, Ideal.exp (f k - (m : EReal)) * c k = ((∑ k, Real.exp (fr k - m) * cr k : ℝ) : EReal) := by
    rw [Cert.LibLinear.coe_sum]
    exact Finset.sum_congr rfl fun k _ => by rw [he k, hcr k, EReal.coe_mul]
  rw [hL, ← EReal.coe_mul]
  -- each normalized term is a real
  have hR : ∀ k, Ideal.div (Ideal.exp (f k - (m : EReal))) ((∑ k, Real.exp (fr k - m) : ℝ) : EReal) * c k
      = ((Real.exp (fr k - m) * (1 / ∑ k, Real.exp (fr k - m)) * cr k : ℝ) : EReal) := fun k => by
    rw [Ideal.div_coe hpos, he k, hcr k, ← EReal.coe_mul, ← EReal.coe_mul]
  rw [Finset.sum_congr rfl fun k _ => hR k, ← Cert.LibLinear.coe_sum]
  congr 1
  rw [Finset.sum_mul]
  exact Finset.sum_congr rfl fun k _ => by ring

end Cert.SoftLookup

end
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.LibKeepDims.lean ====
/-
  Row reductions kept as a column ("keepdims") and broadcast back along the rows, read at an entry.

  A vector over [a] cast to a column [a, 1] reads, at (i, 0), the vector at i; a column [a, 1] broadcast to [a, b]
  reads, at (p, c), the column at p. Composed with a reduction over axis 1 of an [a, b] array:
    the row maximum, kept and broadcast to [a, c], at (p, q) is the fold of max over row p;
    the row sum, kept and broadcast to [a, c], at (p, q) is the sum over row p.
-/
import Idealize.ShloMosaic.PureOps.Ideal.Laws
import Idealize.ShloMosaic.Lib.ValueIdx
import Idealize.ShloMosaic.Lib.Pipeline.Value

noncomputable section

namespace Cert.LibKeepDims

open Idealize.ShloMosaic Idealize.ShloMosaic.ValueIdx

variable {α : Type}

/-- An [a] array cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index over row p with coordinate k on the reduced axis 1 is (p, k). -/
theorem lift_row {a b : ℕ} (h : (⟨2, ![a, b]⟩ : Shape).Reduces [1] ⟨1, ![a]⟩) (p : Fin a) (k : Fin b) :
    h.lift (ix1 p) k = ix2 p k := by
  funext ax; apply Fin.ext
  match ax with
  | ⟨0, _⟩ => rfl
  | ⟨1, _⟩ => rfl

/-- A row maximum kept as a column and broadcast along rows of any length, at (p, q): the fold of max over row p from
    the accumulator's value. -/
theorem rowMax_keepdims_apply {a b c : ℕ} {φ : FTy} (x : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hs : (⟨1, ![a]⟩ : Shape).ShapeCasts ⟨2, ![a, 1]⟩) (hb : (⟨2, ![a, 1]⟩ : Shape).Broadcasts ⟨2, ![a, c]⟩)
    (p : Fin a) (q : Fin c) :
    broadcastTo ⟨2, ![a, c]⟩ (shapeCast ⟨2, ![a, 1]⟩ (multiReduction .maximumf [1] ⟨1, ![a]⟩ x acc h hφ hacc) hs) hb (ix2 p q)
      = (Finset.univ : Finset (Fin b)).fold max (Ideal.ofBits φ acc) (fun k => x (ix2 p k)) := by
  refine (broadcastTo_a1_ab_apply _ hb p q).trans ?_
  refine (shapeCast_a_a1_apply _ hs p 0).trans ?_
  refine (Ideal.multiReduction_maximumf_single x acc h hφ hacc (ix1 p)).trans ?_
  exact congrArg (fun g : Fin b → EReal => (Finset.univ : Finset (Fin b)).fold max (Ideal.ofBits φ acc) g)
    (funext fun k => congrArg x (lift_row h p k))

/-- A row sum kept as a column and broadcast along rows of any length, at (p, q): the sum over row p. -/
theorem rowSum_keepdims_apply {a b c : ℕ} {φ : FTy} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩)
    (p : Fin a) (q : Fin c) :
    broadcastTo ⟨2, ![a, c]⟩ (shapeCast ⟨2, ![a, 1]⟩ (multiReduction .add [1] ⟨1, ![a]⟩ x acc h hφ hacc) hs) hb (ix2 p q)
      = ∑ k : Fin b, x (ix2 p k) := by
  refine (broadcastTo_a1_ab_apply _ hb p q).trans ?_
  refine (shapeCast_a_a1_apply _ hs p 0).trans ?_
  refine (Ideal.multiReduction_add_single x acc h hφ hacc (ix1 p)).trans ?_
  exact Finset.sum_congr rfl fun k _ => congrArg x (lift_row h p k)

end Cert.LibKeepDims

end
-- ==== Proof.BlockRow.lean ====
/-
  One entry of what the kernel body stores, from the blocks it loads.

  The body loads a [512, 8192] block x of logits and the whole [8192, 32] codebook w. Entry (p, q) of the stored block is
    (Σ k, exp (x p k − M p) · w k q) / (Σ k, exp (x p k − M p)),   M p = the maximum of row p of the block,
  the fused arrangement of the soft lookup of row p against column q: the row maximum and the row sum are kept as
  columns and broadcast back, the exponentials pass through a format change that is the identity on extended reals, and
  the matrix product into a zero accumulator is the sum over the contracted axis.
-/
import proofs.«147633_g72335839199651_cont_sun_m_630_7_alg».proof.Proof.Gen.KernelIdeal.Skeleton
import proofs.«147633_g72335839199651_cont_sun_m_630_7_alg».proof.Proof.SoftLookup
import proofs.«147633_g72335839199651_cont_sun_m_630_7_alg».proof.Proof.LibDense
import proofs.«147633_g72335839199651_cont_sun_m_630_7_alg».proof.Proof.LibKeepDims

noncomputable section

namespace Cert.KernelIdeal.BlockRow

open Cert.KernelIdeal Cert.KernelIdeal.Gen Idealize.ShloMosaic Idealize.ShloMosaic.ValueIdx Cert.SoftLookup

/-- The exponential of a block entry less its row's maximum, as the body computes it. -/
theorem weight_apply (x : FVec Ideal S512x8192 .f32) (p : Fin 512) (k : Fin 8192) :
    truncf .bf16 (exp (subf x (broadcastTo S512x8192 (shapeCast S512x1
        (multiReduction .maximumf [1] S512 x 0xFF800000#32 reduces_S512x8192_S512 (.inl rfl) rfl)
        shapeCasts_S512_S512x1) broadcasts_S512x1_S512x8192))) bitsLt_bf16_f32 (ix2 p k)
      = Ideal.exp (x (ix2 p k) - rowMax fun k' : Fin 8192 => x (ix2 p k')) :=
  congrArg (fun m => Ideal.exp (x (ix2 p k) - m))
    (Cert.LibKeepDims.rowMax_keepdims_apply x 0xFF800000#32 reduces_S512x8192_S512 (.inl rfl) rfl
      shapeCasts_S512_S512x1 broadcasts_S512x1_S512x8192 p k)

/-- Entry (p, q) of the stored block is the fused soft lookup of row p of the logits block against column q of the
    codebook, shifted by the row's maximum. -/
theorem pay_apply (x : FVec Ideal S512x8192 .f32) (w : FVec Ideal S8192x32 .bf16) (p : Fin 512) (q : Fin 32) :
    k0_pay1 (F := Ideal) x w (ix2 p q)
      = fused (fun k : Fin 8192 => x (ix2 p k)) (fun k : Fin 8192 => w (ix2 k q))
          (rowMax fun k : Fin 8192 => x (ix2 p k)) := by
  unfold k0_pay1 fused
  refine (divf_apply _ _ _).trans (congrArg₂ Ideal.div ?_ ?_)
  · refine (Cert.LibDense.matmul_zero_apply _ none rfl rfl rfl rfl rfl rfl _ _ p q).trans ?_
    refine Finset.sum_congr rfl fun k _ => congrArg₂ (· * ·) (weight_apply x p k) ?_
    exact congrFun (shapeCast_self w shapeCasts_S8192x32_S8192x32) (ix2 k q)
  · refine (Cert.LibKeepDims.rowSum_keepdims_apply _ 0x00000000#32 reduces_S512x8192_S512 (.inl rfl) rfl
      shapeCasts_S512_S512x1 broadcasts_S512x1_S512x32 p q).trans ?_
    exact Finset.sum_congr rfl fun k _ => weight_apply x p k

end Cert.KernelIdeal.BlockRow

end
-- ==== Proof.Lookup.lean ====
/-
  The soft codebook lookup of a whole batch: one [16384, 32] table from the [16384, 8192] logits and the [8192, 32] codebook.

  Entry (r, j) is the fused soft lookup of row r of the logits against column j of the codebook, shifted by the row's
  maximum:  (Σ k, exp (x r k − M r) · w k j) / (Σ k, exp (x r k − M r)).
-/
import proofs.«147633_g72335839199651_cont_sun_m_630_7_alg».proof.Proof.SoftLookup
import Idealize.ShloMosaic.Lib.ValueIdx

noncomputable section

namespace Cert.Lookup

open Idealize.ShloMosaic Idealize.ShloMosaic.ValueIdx Cert.SoftLookup

/-- Row r of the logits. -/
abbrev logitsRow (x : (⟨2, ![16384, 8192]⟩ : Shape).Idx → EReal) (r : Fin 16384) : Fin 8192 → EReal := fun k => x (ix2 r k)

/-- Column j of the codebook. -/
abbrev codeCol (w : (⟨2, ![8192, 32]⟩ : Shape).Idx → EReal) (j : Fin 32) : Fin 8192 → EReal := fun k => w (ix2 k j)

/-- Entry (r, j) of the lookup. -/
def entry (x : (⟨2, ![16384, 8192]⟩ : Shape).Idx → EReal) (w : (⟨2, ![8192, 32]⟩ : Shape).Idx → EReal) (r : Fin 16384) (j : Fin 32) : EReal :=
  fused (logitsRow x r) (codeCol w j) (rowMax (logitsRow x r))

/-- The whole table. -/
def table (x : (⟨2, ![16384, 8192]⟩ : Shape).Idx → EReal) (w : (⟨2, ![8192, 32]⟩ : Shape).Idx → EReal) :
    (⟨2, ![16384, 32]⟩ : Shape).Idx → EReal :=
  fun i => entry x w ⟨(i 0).val, (i 0).isLt⟩ ⟨(i 1).val, (i 1).isLt⟩

theorem table_apply (x : (⟨2, ![16384, 8192]⟩ : Shape).Idx → EReal) (w : (⟨2, ![8192, 32]⟩ : Shape).Idx → EReal)
    (r : Fin 16384) (j : Fin 32) : table x w (ix2 r j) = entry x w r j := rfl

end Cert.Lookup

end
-- ==== Proof.RowBlocks.lean ====
/-
  The kernel's result array, from the blocks its 32 grid points write back.

  Point t loads rows 512·t … 512·t + 511 of the logits (all 8192 columns) and the whole codebook, and writes back
  rows 512·t … 512·t + 511 of the result (all 32 columns). Entry (p, q) of what it writes is the fused soft lookup of
  the block's row p against the codebook's column q, and the block's row p is the logits' row 512·t + p: so point t writes
  block t of the lookup table of the two arrays the region finds. The 32 blocks tile the 16384 rows, so the array ends
  holding that table; the point that covers row r is r / 512.
-/
import proofs.«147633_g72335839199651_cont_sun_m_630_7_alg».proof.Proof.Gen.KernelIdeal.Value
import proofs.«147633_g72335839199651_cont_sun_m_630_7_alg».proof.Proof.BlockRow
import proofs.«147633_g72335839199651_cont_sun_m_630_7_alg».proof.Proof.Lookup

noncomputable section

open Idealize.ShloMosaic Idealize.ShloMosaic.TcCoe Idealize.SL.Sem
open Idealize.ShloMosaic.Pipeline (Dat)

namespace Cert.KernelIdeal.RowBlocks

open Cert.KernelIdeal Cert.KernelIdeal.Gen Cert.KernelIdeal.Value Idealize.ShloMosaic.ValueIdx Cert.SoftLookup

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the logits' and the result's block row is the point, every other block
    index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The logits window's block at point t: its row p is the array's row 512·t + p. -/
theorem logits_block (c : Dev nD) (t : Fin cfg0.N) (p : Fin 512) (k : Fin 8192) (r : Fin 16384)
    (hr : r.val = t.val * 512 + p.val) :
    (iblk m c 0 t : Vec Ideal S512x8192 .f32) (ix2 p k) = (V m c main_arg0 : S16384x8192.Idx → EReal) (ix2 r k) := by
  obtain ⟨e00, e01, -⟩ := idx_facts t
  unfold iblk
  rw [View.read_apply]
  show (V m c main_arg0 : S16384x8192.Idx → EReal) _ = _
  congr 1
  funext a
  apply Fin.ext
  match a with
  | ⟨0, _⟩ => show win0_0.index t (0 : Fin 2) * 512 + 1 * p.val = r.val; rw [e00, hr]; omega
  | ⟨1, _⟩ => show win0_0.index t (1 : Fin 2) * 8192 + 1 * k.val = k.val; rw [e01]; omega

/-- The codebook window's block at any point is the whole array. -/
theorem codebook_block (c : Dev nD) (t : Fin cfg0.N) (k : Fin 8192) (q : Fin 32) :
    (iblk m c 1 t : Vec Ideal S8192x32 .bf16) (ix2 k q) = (V m c main_v0 : S8192x32.Idx → EReal) (ix2 k q) := by
  obtain ⟨-, -, e10, e11, -⟩ := idx_facts t
  unfold iblk
  rw [View.read_apply]
  show (V m c main_v0 : S8192x32.Idx → EReal) _ = _
  congr 1
  funext a
  apply Fin.ext
  match a with
  | ⟨0, _⟩ => show win0_1.index t (0 : Fin 2) * 8192 + 1 * k.val = k.val; rw [e10]; omega
  | ⟨1, _⟩ => show win0_1.index t (1 : Fin 2) * 32 + 1 * q.val = q.val; rw [e11]; omega

/-- An entry of the stored block, for blocks that are rows of arrays X and W: the lookup's entry at the array's row. -/
theorem stored_entry (X : FVec Ideal S16384x8192 .f32) (W : FVec Ideal S8192x32 .bf16)
    (xb : FVec Ideal S512x8192 .f32) (wb : FVec Ideal S8192x32 .bf16) (r : Fin 16384) (p : Fin 512) (q : Fin 32)
    (hx : ∀ k : Fin 8192, xb (ix2 p k) = X (ix2 r k)) (hw : ∀ k : Fin 8192, wb (ix2 k q) = W (ix2 k q)) :
    k0_pay1 (F := Ideal) xb wb (ix2 p q) = Cert.Lookup.entry X W r q := by
  rw [Cert.KernelIdeal.BlockRow.pay_apply]
  unfold Cert.Lookup.entry Cert.Lookup.logitsRow Cert.Lookup.codeCol
  simp only [hx, hw]

/-- WHAT POINT t WRITES BACK is block t of the lookup table of the arrays the region finds. -/
theorem flushed_eq (c : Dev nD) (t : Fin cfg0.N) :
    (dats m 0 c).flushed 2 t
      = ((cfg0.win 2).blk t).view.read (Elt Ideal) (Cert.Lookup.table (V m c main_arg0) (V m c main_v0)) := by
  rw [Value.flushed2]
  unfold out0_2
  rw [View.canon_unit_zero hz]
  simp only [View.ld_unit_zero (S := S512x8192) hz, View.ld_unit_zero (S := S8192x32) hz]
  funext y
  obtain ⟨-, -, -, -, e20, e21⟩ := idx_facts t
  have ht : t.val < 32 := by have h := t.isLt; have hN : cfg0.N = 32 := N_0; omega
  have hp : (y 0).val < 512 := (y 0).isLt
  have hq : (y 1).val < 32 := (y 1).isLt
  have hy : (win0 2).xinj (grid0.coords t) y = ix2 (⟨(y 0).val, hp⟩ : Fin 512) (⟨(y 1).val, hq⟩ : Fin 32) :=
    funext fun a => Fin.ext (by match a with | ⟨0, _⟩ => rfl | ⟨1, _⟩ => rfl)
  have he : ((cfg0.win 2).blk t).view.emb y
      = ix2 (⟨t.val * 512 + (y 0).val, by omega⟩ : Fin 16384) (⟨(y 1).val, hq⟩ : Fin 32) := by
    funext a
    apply Fin.ext
    match a with
    | ⟨0, _⟩ => show win0_2.index t (0 : Fin 2) * 512 + 1 * (y 0).val = t.val * 512 + (y 0).val; rw [e20]; omega
    | ⟨1, _⟩ => show win0_2.index t (1 : Fin 2) * 32 + 1 * (y 1).val = (y 1).val; rw [e21]; omega
  show k0_pay1 (F := Ideal) (iblk m c 0 t) (iblk m c 1 t) ((win0 2).xinj (grid0.coords t) y)
    = Cert.Lookup.table (V m c main_arg0) (V m c main_v0) (((cfg0.win 2).blk t).view.emb y)
  rw [hy, he, Cert.Lookup.table_apply]
  exact stored_entry (V m c main_arg0) (V m c main_v0) (iblk m c 0 t) (iblk m c 1 t) _ _ _
    (fun k => logits_block m c t _ k _ rfl) (fun k => codebook_block m c t k _)

/-- An index of the array is in point t's block iff each coordinate is in the block's range on its axis. -/
theorem mem_blk (t : Fin cfg0.N) (i : S16384x32.Idx) :
    i ∈ ((cfg0.win 2).blk t).view.set ↔ ∀ a : Fin 2, win0_2.index t a * S512x32.size a ≤ (i a).val ∧ (i a).val < win0_2.index t a * S512x32.size a + S512x32.size a := by
  show i ∈ ((View.whole main_v1).slice (win0_2.rect t)).set ↔ _
  rw [View.set_slice_whole, Rect.mem_set_unit]
  exact Iff.rfl

/-- Every index of the result lies in some point's block: row r in point r / 512's. -/
theorem cover (i : S16384x32.Idx) : ∃ t : Fin cfg0.N, (cfg0.win 2).flush t = true ∧ i ∈ ((cfg0.win 2).blk t).view.set := by
  have hi0 : (i 0).val < 16384 := (i 0).isLt
  have hi1 : (i 1).val < 32 := (i 1).isLt
  have hN : cfg0.N = 32 := N_0
  refine ⟨⟨(i 0).val / 512, by omega⟩, flush0_2 _, ?_⟩
  obtain ⟨-, -, -, -, e20, e21⟩ := idx_facts ⟨(i 0).val / 512, by omega⟩
  rw [mem_blk]
  intro a
  match a with
  | ⟨0, _⟩ =>
    show win0_2.index _ (0 : Fin 2) * 512 ≤ (i 0).val ∧ (i 0).val < win0_2.index _ (0 : Fin 2) * 512 + 512
    rw [e20]; show (i 0).val / 512 * 512 ≤ (i 0).val ∧ (i 0).val < (i 0).val / 512 * 512 + 512; omega
  | ⟨1, _⟩ =>
    show win0_2.index _ (1 : Fin 2) * 32 ≤ (i 1).val ∧ (i 1).val < win0_2.index _ (1 : Fin 2) * 32 + 32
    rw [e21]; omega

/-- THE ARRAY after the run is the lookup table of the arrays the region finds. -/
theorem final (c : Dev nD) :
    (dats m 0 c).arrAt 2 cfg0.N = Cert.Lookup.table (V m c main_arg0) (V m c main_v0) :=
  (dats m 0 c).arrAt_eq_of_cover 2 (Cert.Lookup.table (V m c main_arg0) (V m c main_v0)) (fun t _ => flushed_eq m c t) cover

end Cert.KernelIdeal.RowBlocks

end
-- ==== Proof.KernelRun.lean ====
/-
  The idealized kernel's run, read: the result array ends holding the lookup table of the two arguments.

  The region finds the logits as launched, and the codebook after the host's change of format, which is the identity on
  extended reals; the 32 blocks written back tile the result, so it ends at the table of those two arrays.
-/
import proofs.«147633_g72335839199651_cont_sun_m_630_7_alg».proof.Proof.RowBlocks
import Idealize.ShloMosaic.Lib.StableHlo.Run

noncomputable section

open Idealize.ShloMosaic Idealize.ShloMosaic.TcCoe Idealize.SL.Sem

namespace Cert.KernelIdeal.LookupRun

open Cert.KernelIdeal Cert.KernelIdeal.Gen Cert.KernelIdeal.Value

variable (m : (ℓ : Loc nD τ sig) → Buf (Elt Ideal) ℓ) (ρ : Dev nD → PrngReg)

/-- The codebook as the region finds it is the codebook as launched. -/
theorem codebook_found (c : Dev nD) :
    (V m c main_v0 : S8192x32.Idx → EReal) = (m ((c : Thread nD τ).loc main_arg1) : S8192x32.Idx → EReal) := by
  dsimp only [Gen.V, Gen.hostOps0]
  after_results
  rfl

/-- Every weakly fair execution ends with the result at the lookup table of the arguments, the arguments unchanged. -/
theorem run : θ_run defs (onTc (τ := τ) (main (F := Ideal))) ⟨m, fun _ => 0, ρ⟩ fun r => ∀ c : Dev nD,
      r.2.mem ((c : Thread nD τ).loc main_v1)
        = Cert.Lookup.table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((Cert.KernelIdeal.RowBlocks.final m c).trans
      (by rw [V_main_arg0, codebook_found])), (h c).2⟩)
    (Value.run_blocks m ρ)

end Cert.KernelIdeal.LookupRun

end
-- ==== Proof.RefRow.lean ====
/-
  One entry of the reference's result, from its two arguments.

  The reference shifts each row of the logits x by the row's maximum (taken once more against −∞, which changes
  nothing), exponentiates, divides every exponential by its row's sum (added to a zero initial value), and multiplies the
  normalized weights into the codebook w. Entry (r, j) of the result is
    Σ k, (exp (x r k − M r) / Σ k', exp (x r k' − M r)) · w k j,
  the normalized arrangement of the soft lookup of row r against column j.
-/
import proofs.«147633_g72335839199651_cont_sun_m_630_7_alg».proof.Proof.Gen.ReferenceIdeal.Read
import proofs.«147633_g72335839199651_cont_sun_m_630_7_alg».proof.Proof.SoftLookup
import proofs.«147633_g72335839199651_cont_sun_m_630_7_alg».proof.Proof.LibKeepDims
import Idealize.ShloMosaic.PureOps.Reduce

noncomputable section

namespace Cert.ReferenceIdeal.RefRow

open Cert.ReferenceIdeal Cert.ReferenceIdeal.Gen Cert.ReferenceIdeal.Read Idealize.ShloMosaic Idealize.ShloMosaic.ValueIdx
open Cert.SoftLookup

/-! ### Where each stage reads its operand, by coordinates -/

theorem row_of_entry (r : Fin 16384) (k : Fin 8192) : idx_main_v3 (idx_main_v4 (ix2 r k)) = ix1 r :=
  funext fun a => Fin.ext (by match a with | ⟨0, _⟩ => rfl)

theorem sum_of_entry (r : Fin 16384) (k k' : Fin 8192) : idx_main_v7 (idx_main_v8 (idx_main_v9 (ix2 r k))) k' = ix2 r k' :=
  funext fun a => Fin.ext (by match a with | ⟨0, _⟩ => rfl | ⟨1, _⟩ => rfl)

theorem left_of_entry (r : Fin 16384) (j : Fin 32) (k : Fin 8192) : lidx_main_v11 (ix2 r j) k = ix2 r k :=
  funext fun a => Fin.ext (by match a with | ⟨0, _⟩ => rfl | ⟨1, _⟩ => rfl)

theorem right_of_entry (r : Fin 16384) (j : Fin 32) (k : Fin 8192) : ridx_main_v11 (ix2 r j) k = ix2 k j :=
  funext fun a => Fin.ext (by match a with | ⟨0, _⟩ => rfl | ⟨1, _⟩ => rfl)

/-! ### The stages at an entry -/

/-- The reference's row maximum at row r is the fold of max over the row from −∞. -/
theorem rowmax_apply (x : (⟨S16384x8192, .f32⟩ : BufTy).Contents (Elt Ideal)) (r : Fin 16384) :
    val_main_v0 (F := Ideal) x (ix1 r) = rowMax fun k : Fin 8192 => x (ix2 r k) := by
  have h : S16384x8192.Reduces [1] S16384 := by decide
  unfold val_main_v0
  refine (Host.reduce_eq_fold_single (α := EReal) (FloatOps.maximumf (F := Ideal) (φ := .f32)) x (val_main_cst (F := Ideal)) reducesTo_S16384x8192_S16384_d1 h h_S_ (ix1 r)).trans ?_
  exact congrArg (fun g : Fin 8192 → EReal => (Finset.univ : Finset (Fin 8192)).fold max (Ideal.ofBits .f32 0xFF800000#32) g)
    (funext fun k => congrArg x (Cert.LibKeepDims.lift_row h r k))

/-- The shift subtracted at (r, k) is row r's maximum. -/
theorem shift_apply (x : (⟨S16384x8192, .f32⟩ : BufTy).Contents (Elt Ideal)) (r : Fin 16384) (k : Fin 8192) :
    val_main_v4 (F := Ideal) x (ix2 r k) = rowMax fun k' : Fin 8192 => x (ix2 r k') := by
  rw [val_main_v4_apply, val_main_v3_apply, val_main_v2_apply, val_main_v1_apply, val_main_cst_0_apply, row_of_entry,
    rowmax_apply]
  exact max_negInf_rowMax _

/-- The exponential at (r, k). -/
theorem weight_apply (x : (⟨S16384x8192, .f32⟩ : BufTy).Contents (Elt Ideal)) (r : Fin 16384) (k : Fin 8192) :
    val_main_v6 (F := Ideal) x (ix2 r k) = Ideal.exp (x (ix2 r k) - rowMax fun k' : Fin 8192 => x (ix2 r k')) := by
  rw [val_main_v6_apply, val_main_v5_apply, shift_apply]
  rfl

/-- The normalizer at (r, k) is the sum of row r's exponentials. -/
theorem norm_apply (x : (⟨S16384x8192, .f32⟩ : BufTy).Contents (Elt Ideal)) (r : Fin 16384) (k : Fin 8192) :
    val_main_v9 (F := Ideal) x (ix2 r k)
      = ∑ k' : Fin 8192, Ideal.exp (x (ix2 r k') - rowMax fun k'' : Fin 8192 => x (ix2 r k'')) := by
  rw [val_main_v9_apply, val_main_v8_apply, val_main_v7_apply, val_main_cst_1_apply]
  rw [Ideal.ofBits_def, Ideal.ofBits_zero_f32, zero_add]
  exact Finset.sum_congr rfl fun k' _ => by rw [sum_of_entry, weight_apply]

/-- Entry (r, j) of the reference's result is the normalized soft lookup of row r of the logits against column j of the
    codebook, shifted by the row's maximum. -/
theorem ref_apply (x : (⟨S16384x8192, .f32⟩ : BufTy).Contents (Elt Ideal)) (w : (⟨S8192x32, .f32⟩ : BufTy).Contents (Elt Ideal))
    (r : Fin 16384) (j : Fin 32) :
    val_main_v11 (F := Ideal) x w (ix2 r j)
      = normalized (fun k : Fin 8192 => x (ix2 r k)) (fun k : Fin 8192 => w (ix2 k j))
          (rowMax fun k : Fin 8192 => x (ix2 r k)) := by
  rw [val_main_v11_apply]
  unfold normalized
  refine Finset.sum_congr rfl fun k _ => ?_
  rw [left_of_entry, right_of_entry, val_main_v10_apply, weight_apply, norm_apply]
  rfl

end Cert.ReferenceIdeal.RefRow

end
-- ==== Proof.RefTable.lean ====
/-
  The reference's result is the lookup table, when every entry of both arguments is real.

  Entry (r, j) of the reference is the normalized arrangement of the soft lookup of row r against column j; the table's
  entry is the fused one. Row r's maximum is real (8192 real entries), so the two arrangements agree.
-/
import proofs.«147633_g72335839199651_cont_sun_m_630_7_alg».proof.Proof.RefRow
import proofs.«147633_g72335839199651_cont_sun_m_630_7_alg».proof.Proof.Lookup

noncomputable section

namespace Cert.ReferenceIdeal.RefTable

open Cert.ReferenceIdeal Cert.ReferenceIdeal.Gen Cert.ReferenceIdeal.Read Idealize.ShloMosaic Idealize.ShloMosaic.ValueIdx
open Cert.SoftLookup

theorem ref_table (x : (⟨S16384x8192, .f32⟩ : BufTy).Contents (Elt Ideal)) (w : (⟨S8192x32, .f32⟩ : BufTy).Contents (Elt Ideal))
    (hx : ∀ i, ∃ r : ℝ, x i = (r : EReal)) (hw : ∀ i, ∃ r : ℝ, w i = (r : EReal)) :
    val_main_v11 (F := Ideal) x w = Cert.Lookup.table x w := by
  funext i
  obtain ⟨r, j, rfl⟩ : ∃ (r : Fin 16384) (j : Fin 32), i = ix2 r j := ⟨i 0, i 1, eq_ix2 i⟩
  rw [Cert.ReferenceIdeal.RefRow.ref_apply, Cert.Lookup.table_apply]
  unfold Cert.Lookup.entry Cert.Lookup.logitsRow Cert.Lookup.codeCol
  obtain ⟨mr, hmr⟩ := rowMax_real (n := 8192) (by decide) (fun k : Fin 8192 => x (ix2 r k)) (fun k => hx _)
  rw [hmr]
  exact (fused_eq_normalized (by decide) _ _ mr (fun k => hx _) (fun k => hw _)).symm

end Cert.ReferenceIdeal.RefTable

end
-- ==== Proof.RealInputs.lean ====
/-
  From the precondition to real entries.

  The precondition says, of each float argument, that every entry's absolute value is below +∞ (the f32 word
  0x7F800000), all entries and both arguments conjoined. On the extended reals |x| = max x (−x) is +∞ at both
  infinities, so an entry that passes is a real number.
-/
import proofs.«147633_g72335839199651_cont_sun_m_630_7_alg».proof.Pre_finite_inputs
import Idealize.ShloMosaic.Lib.ReduceAll
import Idealize.ShloMosaic.Lib.ValueIdx
import Idealize.ShloMosaic.PureOps.Ideal.Laws

noncomputable section

namespace Cert.RealInputs

open Idealize.ShloMosaic Cert.Pre_finite_inputs

variable [Cert.Pre_finite_inputs.Facts]

instance : Subsingleton S_.Idx := ⟨fun a b => funext fun d => d.elim0⟩

/-- The f32 word 0x7F800000 denotes +∞. -/
theorem posInf_eq : Ideal.ofBits .f32 0x7F800000#32 = (⊤ : EReal) := by
  simp [Ideal.ofBits, Ideal.ieee]

/-- An extended real whose absolute value compares below +∞ is real. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [Ideal.cmpf_def, Ideal.hostAbsf_def, Ideal.absf_def, posInf_eq] at h
  induction x using EReal.rec with
  | bot => simp [Ideal.cmp] at h
  | top => simp [Ideal.cmp] at h
  | coe r => exact ⟨r, rfl⟩

/-- Under the precondition every entry of both arguments is real. -/
theorem real_of_pre (a0 : FVec Ideal S16384x8192 .f32) (a1 : FVec Ideal S8192x32 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨h1, h2⟩ := IntOp.andi_eq_one.1 h0
  exact ⟨fun i => real_of_abs_lt _ (Host.reduce_andi_all _ _ _ _ _ h1 i),
    fun i => real_of_abs_lt _ (Host.reduce_andi_all _ _ _ _ _ h2 i)⟩

end Cert.RealInputs

end
-- ==== Proof.lean ====
/-
  A fused softmax-and-codebook-product kernel against softmax followed by a matrix product, over the extended reals.

  Both programs take logits x : [16384, 8192] and a codebook w : [8192, 32]. With M r the maximum of row r of x and
  e r k = exp (x r k − M r):
    the kernel computes    out r j = (Σ k, e r k · w k j) / (Σ k, e r k),   one division per entry, block of 512 rows by block;
    the reference computes out r j = Σ k, (e r k / Σ k', e r k') · w k j,  every weight normalized before the product.
  Under the precondition every entry of x and w is real, so M r is real, every e r k is a positive real, the normalizer
  is a positive real S, and both sides are the real number (Σ k, e r k · w k j) · (1/S). The changes of float format (the
  codebook and the exponentials narrowed to bf16) are the identity on extended reals. The idealized kernel is the
  kernel's own text read on the extended reals (no operation is rewritten), so the preservation conjunct is trivially true.

  The three frames: the two kernels' are the generated frame runs; the reference's is its generated run with the result
  dropped.
-/
import proofs.«147633_g72335839199651_cont_sun_m_630_7_alg».proof.Defs
import proofs.«147633_g72335839199651_cont_sun_m_630_7_alg».proof.Proof.Gen.Kernel
import proofs.«147633_g72335839199651_cont_sun_m_630_7_alg».proof.Proof.Gen.Kernel.Skeleton
import proofs.«147633_g72335839199651_cont_sun_m_630_7_alg».proof.Proof.Gen.Kernel.Launch
import proofs.«147633_g72335839199651_cont_sun_m_630_7_alg».proof.Proof.Gen.Kernel.Points
import proofs.«147633_g72335839199651_cont_sun_m_630_7_alg».proof.Proof.Gen.Kernel.Frame
import proofs.«147633_g72335839199651_cont_sun_m_630_7_alg».proof.Proof.Gen.KernelIdeal
import proofs.«147633_g72335839199651_cont_sun_m_630_7_alg».proof.Proof.Gen.KernelIdeal.Skeleton
import proofs.«147633_g72335839199651_cont_sun_m_630_7_alg».proof.Proof.Gen.KernelIdeal.Launch
import proofs.«147633_g72335839199651_cont_sun_m_630_7_alg».proof.Proof.Gen.KernelIdeal.Points
import proofs.«147633_g72335839199651_cont_sun_m_630_7_alg».proof.Proof.Gen.KernelIdeal.Frame
import proofs.«147633_g72335839199651_cont_sun_m_630_7_alg».proof.Proof.Gen.ReferenceIdeal
import proofs.«147633_g72335839199651_cont_sun_m_630_7_alg».proof.Proof.Gen.Pre_finite_inputs
import proofs.«147633_g72335839199651_cont_sun_m_630_7_alg».proof.Proof.Gen.KernelIdeal.Value
import proofs.«147633_g72335839199651_cont_sun_m_630_7_alg».proof.Proof.Gen.ReferenceIdeal.Run
import proofs.«147633_g72335839199651_cont_sun_m_630_7_alg».proof.Proof.Gen.ReferenceIdeal.Read
import proofs.«147633_g72335839199651_cont_sun_m_630_7_alg».proof.Proof.KernelRun
import proofs.«147633_g72335839199651_cont_sun_m_630_7_alg».proof.Proof.RefTable
import proofs.«147633_g72335839199651_cont_sun_m_630_7_alg».proof.Proof.RealInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result at the lookup table of the arguments: the kernel block by block, the
    reference because its normalized arrangement equals the fused one on real entries. -/
theorem algebraic : Cert.algebraic_KernelIdeal_ReferenceIdeal := by
  intro m ρ m' ρ' hpre hagree
  refine ⟨fun c => Cert.Lookup.table (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.LookupRun.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.RealInputs.real_of_pre _ _ (hpre c)
  rw [(hagree c).1, (hagree c).2, Cert.ReferenceIdeal.Read.val_main_v11_eq]
  exact Cert.ReferenceIdeal.RefTable.ref_table _ _ hx hw

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
